-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel

variable [Facts]

def fn {F : FTy → Type} [FloatOps F] (main_arg0 : FVec F S64x512x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  main_v3
-- ==== Kernel.lean ====
abbrev S64x512x1024 : Shape := ⟨3, ![64, 512, 1024]⟩
abbrev S64x512x512 : Shape := ⟨3, ![64, 512, 512]⟩
abbrev S1x512x1024 : Shape := ⟨3, ![1, 512, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩

abbrev nBuf : Space → Nat
  | .hbm => 2
  | .vmem => 4
  | .smem => 0
  | _ => 0

abbrev bufTy : (tb : Table) → Fin (tcTables nBuf tb) → BufTy
  | .hbm, ⟨0, _⟩ => ⟨S64x512x1024, .f32⟩
  | .hbm, ⟨1, _⟩ => ⟨S64x512x512, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  bitsLt_bf16_f32 : FTy.bits .bf16 < FTy.bits .f32
  transposes_S512x1024_p1_0_S1024x512 : S512x1024.Transposes [1, 0] S1024x512
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S_ : Shape := ⟨0, ![]⟩
abbrev S64x512 : Shape := ⟨2, ![64, 512]⟩
abbrev S64x512x512 : Shape := ⟨3, ![64, 512, 512]⟩
abbrev S64x512x1 : Shape := ⟨3, ![64, 512, 1]⟩
abbrev S64x1x512 : Shape := ⟨3, ![64, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S_, .f32⟩
  | .hbm, ⟨3, _⟩ => ⟨S64x512, .f32⟩
  | .hbm, ⟨4, _⟩ => ⟨S64x512x512, .f32⟩
  | .hbm, ⟨5, _⟩ => ⟨S64x512x1, .f32⟩
  | .hbm, ⟨6, _⟩ => ⟨S64x1x512, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S_, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S_, .f32⟩
  | .hbm, ⟨15, _⟩ => ⟨S64x512x512, .f32⟩
  | .hbm, ⟨16, _⟩ => ⟨S64x512x512, .f32⟩
  | .hbm, ⟨17, _⟩ => ⟨S64x512x512, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S64x512x1024_S64x512_d2 : S64x512x1024.ReducesTo [2] S64x512
  h_S_ : 0 < S_.numel
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  dot_S64x512x1024_S64x512x1024_S64x512x512_2_2_1_1_0_0_wf : DotDims.WF S64x512x1024 S64x512x1024 S64x512x512 [2] [2] [1] [1] [0] [0]

variable [Facts₀]

def dot_S64x512x1024_S64x512x1024_S64x512x512_2_2_1_1_0_0 : DotDims S64x512x1024 S64x512x1024 S64x512x512 where
  lhsContracting := [2]
  rhsContracting := [2]
  lhsNonContracting := [1]
  rhsNonContracting := [1]
  lhsBatch := [0]
  rhsBatch := [0]
  wf := dot_S64x512x1024_S64x512x1024_S64x512x512_2_2_1_1_0_0_wf

class Facts : Prop extends Facts₀ where

variable [Facts]
-- ==== Proof.Spec.lean ====
/-
  The value both programs compute, as one function of the input array, at the exact instance (floats read as
  extended reals).

  The input X holds 64 matrices of 512 rows of 1024 numbers. For matrix b and rows i, j the result is

      exp ( c · ( (|X b i|² + |X b j|²) − two · ⟨X b i, X b j⟩ ) ),

  where |·|² is the sum of a row's squares, ⟨·,·⟩ the sum of the products of two rows' entries, and c, two are the
  values of two float words (−1/1024 and 2; never evaluated: the same words stand on both sides).

  Also here: the two matrix-unit and layout readings the tiled program needs that are stated for any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PairKernel

open Idealize.ShloMosaic Idealize.ShloMosaic.ValueIdx

/-- The sum of the squares of row r of matrix b. -/
def sqLen (X : (⟨3, ![64, 512, 1024]⟩ : Shape).Idx → EReal) (b : Fin 64) (r : Fin 512) : EReal :=
  ∑ k : Fin 1024, X (ix3 b r k) * X (ix3 b r k)

/-- The inner product of rows i and j of matrix b. -/
def inner (X : (⟨3, ![64, 512, 1024]⟩ : Shape).Idx → EReal) (b : Fin 64) (i j : Fin 512) : EReal :=
  ∑ k : Fin 1024, X (ix3 b i k) * X (ix3 b j k)

/-- One entry of the result from the two squared lengths and the inner product. -/
def combine (si sj g : EReal) : EReal :=
  Ideal.exp (Ideal.ofBits .f32 0xBA800000#32 * ((si + sj) - Ideal.ofBits .f32 0x40000000#32 * g))

/-- The result array: entry (b, i, j) combines rows i and j of matrix b. -/
def result (X : (⟨3, ![64, 512, 1024]⟩ : Shape).Idx → EReal) : (⟨3, ![64, 512, 512]⟩ : Shape).Idx → EReal :=
  fun i => combine (sqLen X (i 0) (i 1)) (sqLen X (i 0) (i 2)) (inner X (i 0) (i 1) (i 2))

theorem result_apply (X : (⟨3, ![64, 512, 1024]⟩ : Shape).Idx → EReal) (b : Fin 64) (i j : Fin 512) :
    result X (ix3 b i j) = combine (sqLen X b i) (sqLen X b j) (inner X b i j) := rfl

/-! ## Readings stated for any extents -/

variable {m k n : ℕ}

/-- An m×k matrix times a k×n matrix on the matrix unit, accumulated into the zero splat, at (a, b): the sum over the
    contracted coordinate of the products of the entries. -/
theorem matmulPlain_apply {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  refine (Ideal.matmul_constant_zero_apply (⟨[1], [0], [0], [1], [], [], w⟩ : DotDims _ _ _) prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column turned into a row and broadcast down m rows reads, at (r, j), the column's entry j. -/
theorem columnAsRows_apply {α : Type} (htr : (⟨2, ![n, 1]⟩ : Shape).Transposes [1, 0] ⟨2, ![1, n]⟩)
    (hbc : (⟨2, ![1, n]⟩ : Shape).Broadcasts ⟨2, ![m, n]⟩) (v : (⟨2, ![n, 1]⟩ : Shape).Idx → α) (r : Fin m) (j : Fin n) :
    broadcastTo ⟨2, ![m, n]⟩ (transpose ⟨2, ![1, n]⟩ [1, 0] v htr) hbc (ix2 r j) = v (ix2 j (0 : Fin 1)) := by
  rw [broadcastTo_1b_ab_apply, transpose_ix2_apply]

end Cert.PairKernel

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Tile.lean ====
/-
  One tile of the pairwise kernel, read at an index, at the exact instance (floats read as extended reals).

  The tiled program handles one matrix x of m rows of k numbers at a time (given with a leading unit axis). It takes the
  column s of the rows' sums of squares, multiplies x (narrowed, which changes nothing here) by its own transpose on the
  matrix unit into a zero accumulator, adds the column s broadcast along the rows to the same column turned into a row and
  broadcast down the rows, subtracts twice the product, scales and exponentiates. At (p, q) this is the combination of
  |x p|², |x q|² and ⟨x p, x q⟩.
-/
import proofs.«102820_j2396591751300_1_alg».proof.Proof.Spec
import proofs.«102820_j2396591751300_1_alg».proof.Proof.LibRowLayers

noncomputable section

open scoped BigOperators

namespace Cert.PairKernel

open Idealize.ShloMosaic Idealize.ShloMosaic.ValueIdx

variable {m k : ℕ}

/-- The column of the rows' sums of squares, at (r, 0). -/
theorem sqColumn_apply (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (x : FVec Ideal ⟨2, ![m, k]⟩ .f32) (r : Fin m) (u : Fin 1) :
    shapeCast ⟨2, ![m, 1]⟩ (multiReduction .add [1] ⟨1, ![m]⟩ (mulf x x) 0x00000000#32 hred hfmt hacc) hsc (ix2 r u)
      = ∑ c : Fin k, x (ix2 r c) * x (ix2 r c) := by
  rw [RowLayers.column_apply, RowLayers.rowSquares_apply]

/-- The matrix times its own transpose on the matrix unit, operands narrowed, at (p, q): the inner product of rows p, q. -/
theorem gram_apply (h16 : FTy.bf16.bits < FTy.f32.bits)
    (htr : (⟨2, ![m, k]⟩ : Shape).Transposes [1, 0] ⟨2, ![k, m]⟩)
    (w : DotDims.WF ⟨2, ![m, k]⟩ ⟨2, ![k, m]⟩ ⟨2, ![m, m]⟩ [1] [0] [0] [1] [] [])
    (x : FVec Ideal ⟨2, ![m, k]⟩ .f32) (p q : Fin m) :
    matmul (⟨[1], [0], [0], [1], [], [], w⟩ : DotDims _ _ _) none (truncf .bf16 x h16)
        (transpose ⟨2, ![k, m]⟩ [1, 0] (truncf .bf16 x h16) htr) (constant ⟨2, ![m, m]⟩ .f32 0x00000000#32) (ix2 p q)
      = ∑ c : Fin k, x (ix2 p c) * x (ix2 q c) := by
  rw [matmulPlain_apply]
  refine Finset.sum_congr rfl fun c _ => ?_
  rw [transpose_ix2_apply]
  rfl

/-- The exponential of an array, entry by entry. -/
theorem exp_apply {s : Shape} {φ : FTy} (a : FVec Ideal s φ) (i : s.Idx) : exp a i = Ideal.exp (a i) := rfl

/-- The whole tile at (0, p, q). -/
theorem tile_apply (hsc3 : (⟨3, ![1, m, k]⟩ : Shape).ShapeCasts ⟨2, ![m, k]⟩)
    (hred : (⟨2, ![m, k]⟩ : Shape).Reduces [1] ⟨1, ![m]⟩) (hfmt : FKind.Formats FTy.f32)
    (hacc : (0x00000000#32 : BitVec FTy.f32.bits) = FKind.add.neutral .f32 hfmt)
    (hsc : (⟨1, ![m]⟩ : Shape).ShapeCasts ⟨2, ![m, 1]⟩) (h16 : FTy.bf16.bits < FTy.f32.bits)
    (htr : (⟨2, ![m, k]⟩ : Shape).Transposes [1, 0] ⟨2, ![k, m]⟩)
    (w : DotDims.WF ⟨2, ![m, k]⟩ ⟨2, ![k, m]⟩ ⟨2, ![m, m]⟩ [1] [0] [0] [1] [] [])
    (htr1 : (⟨2, ![m, 1]⟩ : Shape).Transposes [1, 0] ⟨2, ![1, m]⟩)
    (hbc : (⟨2, ![m, 1]⟩ : Shape).Broadcasts ⟨2, ![m, m]⟩) (hbr : (⟨2, ![1, m]⟩ : Shape).Broadcasts ⟨2, ![m, m]⟩)
    (hsc2 : (⟨2, ![m, m]⟩ : Shape).ShapeCasts ⟨3, ![1, m, m]⟩)
    (x0 : FVec Ideal ⟨3, ![1, m, k]⟩ .f32) (u : Fin 1) (p q : Fin m) :
    shapeCast ⟨3, ![1, m, m]⟩
      (exp (mulf (broadcast ⟨2, ![m, m]⟩ (Scalar.ofBits (F := Ideal) .f32 0xBA800000#32))
        (subf
          (addf
            (broadcastTo ⟨2, ![m, m]⟩
              (shapeCast ⟨2, ![m, 1]⟩ (multiReduction .add [1] ⟨1, ![m]⟩
                (mulf (shapeCast ⟨2, ![m, k]⟩ x0 hsc3) (shapeCast ⟨2, ![m, k]⟩ x0 hsc3)) 0x00000000#32 hred hfmt hacc) hsc) hbc)
            (broadcastTo ⟨2, ![m, m]⟩
              (transpose ⟨2, ![1, m]⟩ [1, 0]
                (shapeCast ⟨2, ![m, 1]⟩ (multiReduction .add [1] ⟨1, ![m]⟩
                  (mulf (shapeCast ⟨2, ![m, k]⟩ x0 hsc3) (shapeCast ⟨2, ![m, k]⟩ x0 hsc3)) 0x00000000#32 hred hfmt hacc) hsc) htr1) hbr))
          (mulf (broadcast ⟨2, ![m, m]⟩ (Scalar.ofBits (F := Ideal) .f32 0x40000000#32))
            (matmul (⟨[1], [0], [0], [1], [], [], w⟩ : DotDims _ _ _) none (truncf .bf16 (shapeCast ⟨2, ![m, k]⟩ x0 hsc3) h16)
              (transpose ⟨2, ![k, m]⟩ [1, 0] (truncf .bf16 (shapeCast ⟨2, ![m, k]⟩ x0 hsc3) h16) htr)
              (constant ⟨2, ![m, m]⟩ .f32 0x00000000#32)))))) hsc2 (ix3 u p q)
      = combine (∑ c : Fin k, x0 (ix3 (0 : Fin 1) p c) * x0 (ix3 (0 : Fin 1) p c))
          (∑ c : Fin k, x0 (ix3 (0 : Fin 1) q c) * x0 (ix3 (0 : Fin 1) q c))
          (∑ c : Fin k, x0 (ix3 (0 : Fin 1) p c) * x0 (ix3 (0 : Fin 1) q c)) := by
  rw [shapeCast_ab_1ab_apply, exp_apply, mulf_apply, subf_apply, addf_apply, mulf_apply, broadcast_apply, broadcast_apply,
    RowLayers.broadcastColumn_apply, sqColumn_apply, columnAsRows_apply, sqColumn_apply, gram_apply]
  simp only [shapeCast_1ab_ab_apply]
  rfl

end Cert.PairKernel

end
-- ==== Proof.KernelValue.lean ====
/-
  The tiled program's result array is the pairwise kernel of the input, at the exact instance.

  Grid point t handles matrix t: its input block is the whole matrix t of the input (rows and columns at offset zero),
  and it writes back the whole [512, 512] slab t of the result. The body's stored value at (0, p, q) is the combination of
  |x p|², |x q|² and ⟨x p, x q⟩ of that matrix (the tile lemma), which is entry (t, p, q) of the pairwise kernel. The 64 slabs
  cover the result array, so after the run it holds the pairwise kernel of the input.
-/
import proofs.«102820_j2396591751300_1_alg».proof.Proof.Gen.KernelIdeal.Value
import proofs.«102820_j2396591751300_1_alg».proof.Proof.Tile

noncomputable section

open scoped BigOperators

namespace Cert.PairKernel.Tiled

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeroOffsets : (![0, 0, 0] : Fin 3 → Nat) = fun _ => 0 := funext fun a => by fin_cases a <;> rfl

/-- The body's stored value at (u, p, q), from the loaded block. -/
theorem payload_apply (x0 : FVec Ideal S1x512x1024 .f32) (u : Fin 1) (p q : Fin 512) :
    k0_pay1 (F := Ideal) x0 (ix3 u p q)
      = combine (∑ c : Fin 1024, x0 (ix3 (0 : Fin 1) p c) * x0 (ix3 (0 : Fin 1) p c))
          (∑ c : Fin 1024, x0 (ix3 (0 : Fin 1) q c) * x0 (ix3 (0 : Fin 1) q c))
          (∑ c : Fin 1024, x0 (ix3 (0 : Fin 1) p c) * x0 (ix3 (0 : Fin 1) q c)) := by
  unfold k0_pay1
  exact tile_apply _ _ _ _ _ _ _ _ _ _ _ _ x0 u p q

/-- If the loaded block is matrix b of X, the stored value at j is the pairwise kernel of X at (b, j 1, j 2). -/
theorem stored_eq (X : FVec Ideal S64x512x1024 .f32) (x0 : FVec Ideal S1x512x1024 .f32) (b : Fin 64)
    (hx : ∀ (r : Fin 512) (c : Fin 1024), x0 (ix3 (0 : Fin 1) r c) = X (ix3 b r c))
    (j : S1x512x512.Idx) (i : S64x512x512.Idx)
    (h0 : (i 0).val = b.val) (h1 : (i 1).val = (j 1).val) (h2 : (i 2).val = (j 2).val) :
    k0_pay1 (F := Ideal) x0 j = result X i := by
  obtain ⟨u, p, q, rfl⟩ : ∃ (u : Fin 1) (p q : Fin 512), j = ix3 u p q := ⟨j 0, j 1, j 2, eq_ix3 j⟩
  have hi : i = ix3 b p q := by
    funext a; apply Fin.ext
    match a with
    | ⟨0, _⟩ => exact h0
    | ⟨1, _⟩ => exact h1
    | ⟨2, _⟩ => exact h2
  rw [hi, payload_apply, result_apply]
  simp only [hx]
  rfl

/-- The printed index maps, decided over the grid: both windows' blocks sit at matrix t, rows and columns at zero. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point t writes back is slab t of the pairwise kernel of the input array as the region finds it. -/
theorem flushed_eq (c : Dev nD) (t : Fin cfg0.N) :
    (dats m 0 c).flushed 1 t = ((cfg0.win 1).blk t).view.read (Elt Ideal) (result (V m c main_arg0)) := by
  rw [Cert.KernelIdeal.Value.flushed1]
  unfold out0_1
  rw [View.canon_unit_zero zeroOffsets]
  simp only [View.ld_unit_zero (S := S1x512x1024) zeroOffsets]
  obtain ⟨e0, e1, e2, f0, f1, f2⟩ := idx_facts t
  have ht : t.val < 64 := Nat.lt_of_lt_of_eq t.isLt N_0
  funext j
  show k0_pay1 (F := Ideal) (iblk m c 0 t) j = result (V m c main_arg0) (((cfg0.win 1).blk t).view.emb j)
  refine stored_eq (V m c main_arg0) (iblk m c 0 t) ⟨t.val, ht⟩ (fun r k => ?_) j _ ?_ ?_ ?_
  · show V m c main_arg0 (((cfg0.win 0).blk t).view.emb (ix3 (0 : Fin 1) r k)) = V m c main_arg0 (ix3 ⟨t.val, ht⟩ r k)
    refine congrArg (V m c main_arg0) (funext fun a => Fin.ext ?_)
    match a with
    | ⟨0, _⟩ => show win0_0.index t (0 : Fin 3) * 1 + 1 * 0 = t.val; omega
    | ⟨1, _⟩ => show win0_0.index t (1 : Fin 3) * 512 + 1 * r.val = r.val; omega
    | ⟨2, _⟩ => show win0_0.index t (2 : Fin 3) * 1024 + 1 * k.val = k.val; omega
  · show win0_1.index t (0 : Fin 3) * 1 + 1 * (j 0).val = t.val
    have hj : (j 0).val < 1 := (j 0).isLt
    omega
  · show win0_1.index t (1 : Fin 3) * 512 + 1 * (j 1).val = (j 1).val
    omega
  · show win0_1.index t (2 : Fin 3) * 512 + 1 * (j 2).val = (j 2).val
    omega

/-- An index of the result array is in point t's block iff each coordinate is in the block's range on its axis. -/
theorem mem_blk (t : Fin cfg0.N) (i : S64x512x512.Idx) :
    i ∈ ((cfg0.win 1).blk t).view.set ↔ ∀ a : Fin 3, win0_1.index t a * S1x512x512.size a ≤ (i a).val
      ∧ (i a).val < win0_1.index t a * S1x512x512.size a + S1x512x512.size a := by
  show i ∈ ((View.whole main_v0).slice (win0_1.rect t)).set ↔ _
  rw [View.set_slice_whole, Rect.mem_set_unit]
  exact Iff.rfl

/-- Every index of the result array lies in the slab of the point numbered by its first coordinate. -/
theorem covered (i : S64x512x512.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hi2 : (i 2).val < 512 := (i 2).isLt
  have hN : cfg0.N = 64 := N_0
  refine ⟨⟨(i 0).val, by rw [hN]; exact hi0⟩, flush0_1 _, ?_⟩
  rw [mem_blk]
  obtain ⟨-, -, -, f0, f1, f2⟩ := idx_facts ⟨(i 0).val, by rw [hN]; exact hi0⟩
  intro a
  match a with
  | ⟨0, _⟩ =>
    show win0_1.index _ (0 : Fin 3) * 1 ≤ (i 0).val ∧ (i 0).val < win0_1.index _ (0 : Fin 3) * 1 + 1
    rw [f0]; show (i 0).val * 1 ≤ (i 0).val ∧ (i 0).val < (i 0).val * 1 + 1; omega
  | ⟨1, _⟩ =>
    show win0_1.index _ (1 : Fin 3) * 512 ≤ (i 1).val ∧ (i 1).val < win0_1.index _ (1 : Fin 3) * 512 + 512
    rw [f1]; omega
  | ⟨2, _⟩ =>
    show win0_1.index _ (2 : Fin 3) * 512 ≤ (i 2).val ∧ (i 2).val < win0_1.index _ (2 : Fin 3) * 512 + 512
    rw [f2]; omega

/-- The result array after the run is the pairwise kernel of the input as launched. -/
theorem final (c : Dev nD) :
    (dats m 0 c).arrAt 1 cfg0.N = result (m ((c : Thread nD τ).loc main_arg0)) :=
  (dats m 0 c).arrAt_eq_of_cover 1 (result (V m c main_arg0)) (fun t _ => flushed_eq m c t) covered

/-- The run, read: the result array at the pairwise kernel of the input, the input unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.PairKernel.Tiled

end
-- ==== Proof.RefValue.lean ====
/-
  The reference's result term is the pairwise kernel of the input, entry by entry, at the exact instance.

  The whole-array program squares the input, sums each row's squares from the zero word, multiplies the stack of matrices
  by itself contracted on the last axis, lays the sums of squares along the second and along the third axis of a
  [64, 512, 512] array, adds them, subtracts twice the products, scales and exponentiates. Reading each operation at the
  index (b, i, j) leaves the combination of |X b i|², |X b j|² and ⟨X b i, X b j⟩.
-/
import proofs.«102820_j2396591751300_1_alg».proof.Proof.Gen.ReferenceIdeal.Read
import proofs.«102820_j2396591751300_1_alg».proof.Proof.Spec

noncomputable section

open scoped BigOperators

namespace Cert.PairKernel.Whole

open Cert.ReferenceIdeal Cert.ReferenceIdeal.Gen Cert.ReferenceIdeal.Read
open Idealize.ShloMosaic Idealize.ShloMosaic.ValueIdx

/-- The row whose squares are summed for the broadcast along the third axis is row i of matrix b. -/
theorem rowOfFirst (b : Fin 64) (i j : Fin 512) (k : Fin 1024) :
    idx_main_v1 (idx_main_v3 (idx_main_v5 (ix3 b i j))) k = ix3 b i k :=
  funext fun a => Fin.ext (by match a with | ⟨0, _⟩ => rfl | ⟨1, _⟩ => rfl | ⟨2, _⟩ => rfl)

/-- The row whose squares are summed for the broadcast along the second axis is row j of matrix b. -/
theorem rowOfSecond (b : Fin 64) (i j : Fin 512) (k : Fin 1024) :
    idx_main_v1 (idx_main_v4 (idx_main_v6 (ix3 b i j))) k = ix3 b j k :=
  funext fun a => Fin.ext (by match a with | ⟨0, _⟩ => rfl | ⟨1, _⟩ => rfl | ⟨2, _⟩ => rfl)

/-- The product's left factor at (b, i, j) and contracted coordinate k is entry k of row i of matrix b, -/
theorem leftOf (b : Fin 64) (i j : Fin 512) (k : Fin 1024) : lidx_main_v2 (ix3 b i j) k = ix3 b i k :=
  funext fun a => Fin.ext (by match a with | ⟨0, _⟩ => rfl | ⟨1, _⟩ => rfl | ⟨2, _⟩ => rfl)

/-- and its right factor entry k of row j. -/
theorem rightOf (b : Fin 64) (i j : Fin 512) (k : Fin 1024) : ridx_main_v2 (ix3 b i j) k = ix3 b j k :=
  funext fun a => Fin.ext (by match a with | ⟨0, _⟩ => rfl | ⟨1, _⟩ => rfl | ⟨2, _⟩ => rfl)

/-- The reference's last stage is the pairwise kernel of the input. -/
theorem stage_eq_result (X : (⟨S64x512x1024, .f32⟩ : BufTy).Contents (Elt Ideal)) :
    val_main_v13 (F := Ideal) X = result X := by
  funext i
  obtain ⟨b, p, q, rfl⟩ : ∃ (b : Fin 64) (p q : Fin 512), i = ix3 b p q := ⟨i 0, i 1, i 2, eq_ix3 i⟩
  rw [val_main_v13_apply, val_main_v12_apply, val_main_v11_apply, val_main_cst_1_apply, val_main_v10_apply,
    val_main_v7_apply, val_main_v5_apply, val_main_v3_apply, val_main_v1_apply, val_main_v6_apply, val_main_v4_apply,
    val_main_v1_apply, val_main_v9_apply, val_main_v8_apply, val_main_cst_0_apply, val_main_v2_apply, val_main_cst_apply]
  simp only [val_main_v0_apply, rowOfFirst, rowOfSecond, leftOf, rightOf]
  rw [result_apply]
  show Ideal.exp (Ideal.ofBits .f32 0xBA800000#32 *
      ((Ideal.ofBits .f32 0x00000000#32 + _ + (Ideal.ofBits .f32 0x00000000#32 + _)) - Ideal.ofBits .f32 0x40000000#32 * _)) = _
  rw [Ideal.ofBits_zero_f32, zero_add, zero_add]
  rfl

end Cert.PairKernel.Whole

end
-- ==== Proof.lean ====
/-
  The tiled pairwise kernel against its whole-array reference, over the extended reals.

  The input X holds 64 matrices of 512 rows of 1024 numbers; entry (b, i, j) of the result is
  exp (c · ((|X b i|² + |X b j|²) − 2 · ⟨X b i, X b j⟩)), c the float −1/1024. The tiled program computes one matrix's
  [512, 512] slab per grid point, taking the inner products on the matrix unit (operands narrowed, which is the identity on
  extended reals) from the matrix and its transpose; the reference computes all slabs at once with a stacked product
  contracted on the last axis. Both sum a row's squares from zero, add the two squared lengths in the same order, subtract
  twice the product and scale by the same words, so no law beyond reading each operation at an index is needed, and the
  precondition is never opened.

  Proof/Spec.lean states the result as one function of the input; Proof/Tile.lean reads one tile at an index;
  Proof/KernelValue.lean carries the tiles to the result array of the tiled program's run; Proof/RefValue.lean reads the
  reference's stages down to the same function. The three frames are the generated ones (the reference's is its run with
  the result dropped), and the idealization rewrote nothing, so the second program is the first read at the exact
  instance.
-/
import proofs.«102820_j2396591751300_1_alg».proof.Defs
import proofs.«102820_j2396591751300_1_alg».proof.Proof.Gen.Kernel
import proofs.«102820_j2396591751300_1_alg».proof.Proof.Gen.Kernel.Skeleton
import proofs.«102820_j2396591751300_1_alg».proof.Proof.Gen.Kernel.Launch
import proofs.«102820_j2396591751300_1_alg».proof.Proof.Gen.Kernel.Points
import proofs.«102820_j2396591751300_1_alg».proof.Proof.Gen.Kernel.Frame
import proofs.«102820_j2396591751300_1_alg».proof.Proof.Gen.KernelIdeal
import proofs.«102820_j2396591751300_1_alg».proof.Proof.Gen.KernelIdeal.Skeleton
import proofs.«102820_j2396591751300_1_alg».proof.Proof.Gen.KernelIdeal.Launch
import proofs.«102820_j2396591751300_1_alg».proof.Proof.Gen.KernelIdeal.Points
import proofs.«102820_j2396591751300_1_alg».proof.Proof.Gen.KernelIdeal.Frame
import proofs.«102820_j2396591751300_1_alg».proof.Proof.Gen.ReferenceIdeal
import proofs.«102820_j2396591751300_1_alg».proof.Proof.Gen.Pre_finite_inputs
import proofs.«102820_j2396591751300_1_alg».proof.Proof.Gen.KernelIdeal.Value
import proofs.«102820_j2396591751300_1_alg».proof.Proof.Gen.ReferenceIdeal.Run
import proofs.«102820_j2396591751300_1_alg».proof.Proof.Gen.ReferenceIdeal.Read
import proofs.«102820_j2396591751300_1_alg».proof.Proof.KernelValue
import proofs.«102820_j2396591751300_1_alg».proof.Proof.RefValue
import Idealize.ShloMosaic.Adequacy
import Idealize.ShloMosaic.Init

noncomputable section

namespace Cert.Proof

open Idealize.ShloMosaic Idealize.ShloMosaic.TcCoe Idealize.SL.Sem

/-- The tiled program at the word level terminates without a fault and leaves its input as it was. -/
theorem frame_kernel : Cert.frame_Kernel := fun m ρ _ => Cert.Kernel.Gen.frame m ρ

/-- The same program read at the exact instance. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the pairwise kernel of the (agreeing) inputs in their result arrays. -/
theorem algebraic : Cert.algebraic_KernelIdeal_ReferenceIdeal := by
  intro m ρ m' ρ' _ hagree
  refine ⟨fun c => Cert.PairKernel.result (m ((c.tc : Thread Cert.KernelIdeal.nD Cert.KernelIdeal.τ).loc Cert.KernelIdeal.main_arg0)),
    Cert.PairKernel.Tiled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.PairKernel.Whole.stage_eq_result, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
